-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S4000x128 : Shape := ⟨2, ![4000, 128]⟩

abbrev nBuf : Space → Nat
  | .hbm => 10
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S128x128, .f32⟩
  | .hbm, ⟨8, _⟩ => ⟨S1x128, .f32⟩
  | .hbm, ⟨9, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .i1⟩
  | .hbm, ⟨13, _⟩ => ⟨S_, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S128x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MlpSpec.lean ====
/-
  The function both programs compute, stated once over the extended reals.

  For a row `r` of `u` (100000 rows of 128 entries) the hidden vector is
  `h r j = leaky (∑ k, u r k · W1 j k + b1 j)` — the first linear layer uses `W1` transposed, so the sum runs
  over `W1`'s SECOND coordinate — with `leaky z = z` where `z ≥ 0` and `s · z` elsewhere, `s` the single-precision
  number nearest to one fifth (the same word in both programs, never evaluated here). The result is
  `out r q = ∑ k, h r k · W2 q k + b2 q`. Sums are taken in the order of the index `k : Fin 128`; both programs
  sum in that order, so no law of the extended reals beyond reading the operations at an index is needed and
  the finiteness of the inputs plays no part.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The shapes of the arguments: the rows, a square weight matrix, a bias vector. -/
abbrev Rows : Shape := ⟨2, ![100000, 128]⟩
abbrev Sq : Shape := ⟨2, ![128, 128]⟩
abbrev Bias : Shape := ⟨1, ![128]⟩

/-- The activation: the identity on `z ≥ 0`, multiplication by the slope (the word `0x3E4CCCCD`) elsewhere. The
    comparison is the extended reals' own (`Ideal.cmp`), so `⊤` is kept and `⊥` is scaled. -/
def leaky (z : EReal) : EReal :=
  Scalar.select (Ideal.cmp .oge z (Ideal.ofBits .f32 0x00000000#32)) z (Ideal.ofBits .f32 0x3E4CCCCD#32 * z)

/-- The first layer before the activation, at row `r` and hidden unit `j`. -/
def lin1 (u : Rows.Idx → EReal) (W1 : Sq.Idx → EReal) (b1 : Bias.Idx → EReal) (r : Fin 100000) (j : Fin 128) : EReal :=
  (∑ k : Fin 128, u (ix2 r k) * W1 (ix2 j k)) + b1 (ix1 j)

/-- The whole result array, index by index. -/
def mlp (u : Rows.Idx → EReal) (W1 : Sq.Idx → EReal) (b1 : Bias.Idx → EReal) (W2 : Sq.Idx → EReal) (b2 : Bias.Idx → EReal) :
    Rows.Idx → EReal := fun i =>
  (∑ k : Fin 128, leaky (lin1 u W1 b1 (i 0) k) * W2 (ix2 (i 1) k)) + b2 (ix1 (i 1))

/-- The result at explicit coordinates. -/
theorem mlp_ix2 (u : Rows.Idx → EReal) (W1 : Sq.Idx → EReal) (b1 : Bias.Idx → EReal) (W2 : Sq.Idx → EReal) (b2 : Bias.Idx → EReal)
    (r : Fin 100000) (q : Fin 128) :
    mlp u W1 b1 W2 b2 (ix2 r q) = (∑ k : Fin 128, leaky (lin1 u W1 b1 r k) * W2 (ix2 q k)) + b2 (ix1 q) := rfl

end Cert.Mlp

end
-- ==== Proof.BlockMlp.lean ====
/-
  One grid point's work, read at an index. The body multiplies its 4000 rows of `u` by the (already transposed)
  first weight matrix, adds the first bias row, applies the activation, multiplies by the (already transposed)
  second weight matrix and adds the second bias row. At local row `p` and column `q` this is
  `∑ k, leaky (∑ k', x p k' · w1 k' k + c1 0 k) · w2 k q + c2 0 q`: each matrix product into a zero accumulator is the
  plain sum over the contracted coordinate, a bias row is read at row 0 whatever the output row, and the
  compare / multiply / select triple is `leaky` of the element.
-/
import proofs.«172097_g30253749633090_cont_9to1_1439_1_alg».proof.Proof.Gen.KernelIdeal.Skeleton
import proofs.«172097_g30253749633090_cont_9to1_1439_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.Mlp.Block

open Idealize.ShloMosaic Idealize.ShloMosaic.ValueIdx
open Cert.KernelIdeal Cert.KernelIdeal.Gen
open Cert.Mlp

/-! ## The matrix product of a row block with a square matrix -/

theorem lhs_rows (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_contr (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_contr (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_cols (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A row block times a square matrix into the zero accumulator, at (`p`, `q`): the sum over the shared
    coordinate of row `p` of the left factor against column `q` of the right one. -/
theorem rowsTimes_apply (l : FVec Ideal S4000x128 .f32) (r : FVec Ideal S128x128 .f32) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_rows _ _
    | ⟨1, _⟩ => exact (lhs_contr _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_contr _ _).trans hk
    | ⟨1, _⟩ => exact rhs_cols _ _)
  rw [el, er]

/-! ## The body's stored value -/

/-- The first layer of the body before the activation, at local row `p` and hidden unit `k`. -/
def pre (x : Vec Ideal S4000x128 .f32) (w1 : Vec Ideal S128x128 .f32) (c1 : Vec Ideal S1x128 .f32) (p : Fin 4000) (k : Fin 128) : EReal :=
  (∑ k' : Fin 128, x (ix2 p k') * w1 (ix2 k' k)) + c1 (ix2 (0 : Fin 1) k)

/-- THE STORED BLOCK at (`p`, `q`). -/
theorem stored_apply (x : Vec Ideal S4000x128 .f32) (w1 : Vec Ideal S128x128 .f32) (c1 : Vec Ideal S1x128 .f32)
    (w2 : Vec Ideal S128x128 .f32) (c2 : Vec Ideal S1x128 .f32) (p : Fin 4000) (q : Fin 128) :
    k0_pay1 (F := Ideal) x w1 c1 w2 c2 (ix2 p q)
      = (∑ k : Fin 128, leaky (pre x w1 c1 p k) * w2 (ix2 k q)) + c2 (ix2 (0 : Fin 1) q) := by
  unfold k0_pay1
  simp only [shapeCast_self]
  rw [addf_apply, rowsTimes_apply, broadcastTo_1b_ab_apply]
  refine congrArg (· + c2 (ix2 (0 : Fin 1) q)) (Finset.sum_congr rfl fun k _ => ?_)
  rw [select_apply, cmpf_apply, mulf_apply, addf_apply, rowsTimes_apply, broadcastTo_1b_ab_apply, broadcast_apply,
    broadcast_apply]
  rfl

end Cert.Mlp.Block

end
-- ==== Proof.KernelMlp.lean ====
/-
  The kernel's result array is the specification of its argument arrays.

  Grid point `t` (of 25) works on rows `4000 t … 4000 t + 3999` of `u`; the other four windows are whole arrays
  the host wrote before the launch: the two weight matrices transposed and the two bias vectors as one-row
  matrices. So the block point `t` stores, read at local (`p`, `q`), is the specification at row `4000 t + p` and
  column `q`; the 25 row blocks tile the 100000 rows, and the array after the run is the specification.
-/
import proofs.«172097_g30253749633090_cont_9to1_1439_1_alg».proof.Proof.Gen.KernelIdeal.Value
import proofs.«172097_g30253749633090_cont_9to1_1439_1_alg».proof.Proof.BlockMlp
import Idealize.ShloMosaic.Lib.StableHlo.Run
import Idealize.ShloMosaic.Lib.Tactic

noncomputable section

namespace Cert.Mlp.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value
open Cert.Mlp

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: the row windows (input 0, output 5) sit at block row `t`, the other
    four never move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The last row of the last block is inside the array. -/
theorem row_lt (t : Fin cfg0.N) (p : Fin 4000) : 4000 * t.val + p.val < 100000 := by
  have h : t.val < cfg0.N := t.isLt
  have hN : cfg0.N = 25 := N_0
  have := p.isLt
  omega

/-! ## What the host wrote before the launch -/

theorem w1T (c : Dev nD) : (V m c main_v0 : S128x128.Idx → EReal)
    = transpose S128x128 [1, 0] (m ((c : Thread nD τ).loc main_arg1)) transposes_S128x128_S128x128_1_0 := by
  dsimp only [V, hostOps0]; after_results
theorem b1row (c : Dev nD) : (V m c main_v1 : S1x128.Idx → EReal)
    = shapeCast S1x128 (m ((c : Thread nD τ).loc main_arg2)) shapeCasts_S128_S1x128 := by
  dsimp only [V, hostOps0]; after_results; rfl
theorem w2T (c : Dev nD) : (V m c main_v2 : S128x128.Idx → EReal)
    = transpose S128x128 [1, 0] (m ((c : Thread nD τ).loc main_arg3)) transposes_S128x128_S128x128_1_0 := by
  dsimp only [V, hostOps0]; after_results
theorem b2row (c : Dev nD) : (V m c main_v3 : S1x128.Idx → EReal)
    = shapeCast S1x128 (m ((c : Thread nD τ).loc main_arg4)) shapeCasts_S128_S1x128 := by
  dsimp only [V, hostOps0]; after_results; rfl

/-! ## The windows' blocks at a point, read at an index -/

/-- Input 0 at point `t`, local (`p`, `k`): row `4000 t + p` of `u`. -/
theorem rows_apply (c : Dev nD) (t : Fin cfg0.N) (p : Fin 4000) (k : Fin 128) :
    (iblk m c 0 t : Vec Ideal S4000x128 .f32) (ix2 p k)
      = m ((c : Thread nD τ).loc main_arg0) (ix2 ⟨4000 * t.val + p.val, row_lt t p⟩ k) := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- Input 1 at any point is the transposed first weight matrix: at (`a`, `b`) it holds `W1 b a`. -/
theorem w1_apply (c : Dev nD) (t : Fin cfg0.N) (a b : Fin 128) :
    (iblk m c 1 t : Vec Ideal S128x128 .f32) (ix2 a b) = m ((c : Thread nD τ).loc main_arg1) (ix2 b a) := by
  obtain ⟨-, -, e0, e1, -⟩ := index_facts t
  unfold iblk
  rw [View.read_apply]
  show V m c main_v0 _ = _
  rw [w1T]
  refine Eq.trans (congrArg _ (funext fun d => Fin.ext ?_)) (transpose_ix2_apply _ _ a b)
  match d with
  | ⟨0, _⟩ => show win0_1.index t (0 : Fin 2) * 128 + 1 * a.val = a.val; rw [e0]; omega
  | ⟨1, _⟩ => show win0_1.index t (1 : Fin 2) * 128 + 1 * b.val = b.val; rw [e1]; omega

/-- Input 2 at any point is the first bias as one row. -/
theorem c1_apply (c : Dev nD) (t : Fin cfg0.N) (k : Fin 128) :
    (iblk m c 2 t : Vec Ideal S1x128 .f32) (ix2 (0 : Fin 1) k) = m ((c : Thread nD τ).loc main_arg2) (ix1 k) := by
  obtain ⟨-, -, -, -, e0, e1, -⟩ := index_facts t
  unfold iblk
  rw [View.read_apply]
  show V m c main_v1 _ = _
  rw [b1row]
  refine Eq.trans (congrArg _ (funext fun d => Fin.ext ?_)) (shapeCast_a_1a_apply _ _ (0 : Fin 1) k)
  match d with
  | ⟨0, _⟩ => show win0_2.index t (0 : Fin 2) * 1 + 1 * 0 = 0; rw [e0]
  | ⟨1, _⟩ => show win0_2.index t (1 : Fin 2) * 128 + 1 * k.val = k.val; rw [e1]; omega

/-- Input 3 at any point is the transposed second weight matrix. -/
theorem w2_apply (c : Dev nD) (t : Fin cfg0.N) (a b : Fin 128) :
    (iblk m c 3 t : Vec Ideal S128x128 .f32) (ix2 a b) = m ((c : Thread nD τ).loc main_arg3) (ix2 b a) := by
  obtain ⟨-, -, -, -, -, -, e0, e1, -⟩ := index_facts t
  unfold iblk
  rw [View.read_apply]
  show V m c main_v2 _ = _
  rw [w2T]
  refine Eq.trans (congrArg _ (funext fun d => Fin.ext ?_)) (transpose_ix2_apply _ _ a b)
  match d with
  | ⟨0, _⟩ => show win0_3.index t (0 : Fin 2) * 128 + 1 * a.val = a.val; rw [e0]; omega
  | ⟨1, _⟩ => show win0_3.index t (1 : Fin 2) * 128 + 1 * b.val = b.val; rw [e1]; omega

/-- Input 4 at any point is the second bias as one row. -/
theorem c2_apply (c : Dev nD) (t : Fin cfg0.N) (k : Fin 128) :
    (iblk m c 4 t : Vec Ideal S1x128 .f32) (ix2 (0 : Fin 1) k) = m ((c : Thread nD τ).loc main_arg4) (ix1 k) := by
  obtain ⟨-, -, -, -, -, -, -, -, e0, e1, -⟩ := index_facts t
  unfold iblk
  rw [View.read_apply]
  show V m c main_v3 _ = _
  rw [b2row]
  refine Eq.trans (congrArg _ (funext fun d => Fin.ext ?_)) (shapeCast_a_1a_apply _ _ (0 : Fin 1) k)
  match d with
  | ⟨0, _⟩ => show win0_4.index t (0 : Fin 2) * 1 + 1 * 0 = 0; rw [e0]
  | ⟨1, _⟩ => show win0_4.index t (1 : Fin 2) * 128 + 1 * k.val = k.val; rw [e1]; omega

/-! ## A point's stored block is its rows of the specification -/

/-- The specification of the launch contents of the five arguments. -/
abbrev result (c : Dev nD) : Buf (Elt Ideal) ((c : Thread nD τ).loc main_v4) :=
  mlp (m ((c : Thread nD τ).loc main_arg0)) (m ((c : Thread nD τ).loc main_arg1)) (m ((c : Thread nD τ).loc main_arg2))
    (m ((c : Thread nD τ).loc main_arg3)) (m ((c : Thread nD τ).loc main_arg4))

/-- The body's first layer on point `t`'s blocks is the specification's on row `4000 t + p`. -/
theorem pre_eq (c : Dev nD) (t : Fin cfg0.N) (p : Fin 4000) (k : Fin 128) :
    Block.pre (iblk m c 0 t) (iblk m c 1 t) (iblk m c 2 t) p k
      = lin1 (m ((c : Thread nD τ).loc main_arg0)) (m ((c : Thread nD τ).loc main_arg1)) (m ((c : Thread nD τ).loc main_arg2))
          ⟨4000 * t.val + p.val, row_lt t p⟩ k := by
  unfold Block.pre lin1
  rw [c1_apply]
  refine congrArg (· + _) (Finset.sum_congr rfl fun k' _ => ?_)
  rw [rows_apply, w1_apply]

/-- WHAT POINT `t` WRITES BACK is block `t` of the specification. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin]
  simp only [View.ld_unit_zero (S := S4000x128) origin, View.ld_unit_zero (S := S128x128) origin,
    View.ld_unit_zero (S := S1x128) origin]
  funext j
  obtain ⟨p, q, rfl⟩ : ∃ (p : Fin 4000) (q : Fin 128), j = ix2 p q := ⟨j 0, j 1, eq_ix2 j⟩
  obtain ⟨-, -, -, -, -, -, -, -, -, -, e0, e1⟩ := index_facts t
  have hemb : ((cfg0.win 5).blk t).view.emb (ix2 p q) = ix2 ⟨4000 * t.val + p.val, row_lt t p⟩ q :=
    funext fun a => Fin.ext (by
      match a with
      | ⟨0, _⟩ => show win0_5.index t (0 : Fin 2) * 4000 + 1 * p.val = 4000 * t.val + p.val; rw [e0]; omega
      | ⟨1, _⟩ => show win0_5.index t (1 : Fin 2) * 128 + 1 * q.val = q.val; rw [e1]; omega)
  show k0_pay1 (F := Ideal) (iblk m c 0 t) (iblk m c 1 t) (iblk m c 2 t) (iblk m c 3 t) (iblk m c 4 t) (ix2 p q)
    = result m c (((cfg0.win 5).blk t).view.emb (ix2 p q))
  rw [hemb]
  refine (Block.stored_apply (iblk m c 0 t) (iblk m c 1 t) (iblk m c 2 t) (iblk m c 3 t) (iblk m c 4 t) p q).trans ?_
  rw [c2_apply]
  refine congrArg (· + _) (Finset.sum_congr rfl fun k _ => ?_)
  rw [pre_eq, w2_apply]

/-! ## The row blocks tile the array -/

theorem mem_block (t : Fin cfg0.N) (i : S100000x128.Idx) :
    i ∈ ((cfg0.win 5).blk t).view.set
      ↔ ∀ a : Fin 2, win0_5.index t a * S4000x128.size a ≤ (i a).val ∧ (i a).val < win0_5.index t a * S4000x128.size a + S4000x128.size a := by
  show i ∈ ((View.whole main_v4).slice (win0_5.rect t)).set ↔ _
  rw [View.set_slice_whole, Rect.mem_set_unit]
  exact Iff.rfl

/-- Row `r` lies in the block of point `r / 4000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  have ht : (i 0).val / 4000 < cfg0.N := by rw [hN]; omega
  refine ⟨⟨(i 0).val / 4000, ht⟩, flush0_5 _, ?_⟩
  rw [mem_block]
  obtain ⟨-, -, -, -, -, -, -, -, -, -, e0, e1⟩ := index_facts ⟨(i 0).val / 4000, ht⟩
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_5.index ⟨(i 0).val / 4000, ht⟩ (1 : Fin 2) * 128 ≤ (i 1).val
      ∧ (i 1).val < win0_5.index ⟨(i 0).val / 4000, ht⟩ (1 : Fin 2) * 128 + 128
    rw [e1]
    omega

/-- THE ARRAY after the run is the specification. -/
theorem final (c : Dev nD) : (dats m 0 c).arrAt 5 cfg0.N = result m c :=
  (dats m 0 c).arrAt_eq_of_cover 5 (result m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Mlp.Kernel

end
-- ==== Proof.RefMlp.lean ====
/-
  The reference's result, read one host operation at a time, is the specification `Cert.Mlp.mlp` of the five
  argument arrays: its two `dot_general`s are the two sums over `k : Fin 128` (each against a transposed weight
  matrix, so the weight is read at swapped coordinates), the biases are broadcast along the rows, and the
  compare / multiply / select triple is the activation `leaky`.
-/
import proofs.«172097_g30253749633090_cont_9to1_1439_1_alg».proof.Proof.Gen.ReferenceIdeal.Read
import proofs.«172097_g30253749633090_cont_9to1_1439_1_alg».proof.Proof.MlpSpec

noncomputable section

namespace Cert.Mlp.Ref

open Idealize.ShloMosaic Idealize.ShloMosaic.ValueIdx
open Cert.ReferenceIdeal Cert.ReferenceIdeal.Gen Cert.ReferenceIdeal.Read
open Cert.Mlp

variable (x0 : S100000x128.Idx → EReal) (x1 : S128x128.Idx → EReal) (x2 : S128.Idx → EReal)
  (x3 : S128x128.Idx → EReal) (x4 : S128.Idx → EReal)

/-- The first product's operands at output index (`r`, `q`) and contraction index `k`: row `r` of `u` at `k`, and —
    through the transposition — `W1` at (`q`, `k`). -/
theorem lhs1 (r : Fin 100000) (q k : Fin 128) : lidx_main_v1 (ix2 r q) k = ix2 r k :=
  funext fun a => Fin.ext (by match a with | ⟨0, _⟩ => rfl | ⟨1, _⟩ => rfl)
theorem rhs1 (r : Fin 100000) (q k : Fin 128) : idx_main_v0 (ridx_main_v1 (ix2 r q) k) = ix2 q k :=
  funext fun a => Fin.ext (by match a with | ⟨0, _⟩ => rfl | ⟨1, _⟩ => rfl)
/-- The first bias, broadcast twice, is read at the column. -/
theorem bias1 (r : Fin 100000) (q : Fin 128) : idx_main_v2 (idx_main_v3 (ix2 r q)) = ix1 q :=
  funext fun a => Fin.ext (by match a with | ⟨0, _⟩ => rfl)

/-- The first layer of the reference at an index is `lin1`. -/
theorem lin1_apply (r : Fin 100000) (q : Fin 128) :
    val_main_v4 (F := Ideal) x0 x1 x2 (ix2 r q) = lin1 x0 x1 x2 r q := by
  rw [val_main_v4_apply, val_main_v1_apply, val_main_v3_apply, val_main_v2_apply, bias1]
  simp only [val_main_v0_apply, lhs1, rhs1]
  rfl

/-- The activated hidden value of the reference at an index is `leaky` of it. -/
theorem hidden_apply (r : Fin 100000) (q : Fin 128) :
    val_main_v9 (F := Ideal) x0 x1 x2 (ix2 r q) = leaky (lin1 x0 x1 x2 r q) := by
  rw [val_main_v9_apply, val_main_v6_apply, val_main_v8_apply, val_main_v5_apply, val_main_v7_apply,
    val_main_cst_apply, val_main_cst_0_apply, lin1_apply]
  rfl

/-- The second product's operands, and the second bias. -/
theorem lhs2 (r : Fin 100000) (q k : Fin 128) : lidx_main_v11 (ix2 r q) k = ix2 r k :=
  funext fun a => Fin.ext (by match a with | ⟨0, _⟩ => rfl | ⟨1, _⟩ => rfl)
theorem rhs2 (r : Fin 100000) (q k : Fin 128) : idx_main_v10 (ridx_main_v11 (ix2 r q) k) = ix2 q k :=
  funext fun a => Fin.ext (by match a with | ⟨0, _⟩ => rfl | ⟨1, _⟩ => rfl)
theorem bias2 (r : Fin 100000) (q : Fin 128) : idx_main_v12 (idx_main_v13 (ix2 r q)) = ix1 q :=
  funext fun a => Fin.ext (by match a with | ⟨0, _⟩ => rfl)

/-- THE REFERENCE IS THE SPECIFICATION. -/
theorem result_eq : val_main_v14 (F := Ideal) x0 x1 x2 x3 x4 = mlp x0 x1 x2 x3 x4 := by
  funext i
  obtain ⟨r, q, rfl⟩ : ∃ (r : Fin 100000) (q : Fin 128), i = ix2 r q := ⟨i 0, i 1, eq_ix2 i⟩
  rw [val_main_v14_apply, val_main_v11_apply, val_main_v13_apply, val_main_v12_apply, bias2, mlp_ix2]
  refine congrArg (· + x4 (ix1 q)) (Finset.sum_congr rfl fun k _ => ?_)
  rw [val_main_v10_apply, lhs2, rhs2, hidden_apply]

end Cert.Mlp.Ref

end
-- ==== Proof.lean ====
/-
  A two-layer perceptron applied to each of 100000 rows of 128 numbers,
  `out = leaky (u · W1ᵀ + b1) · W2ᵀ + b2`, as a kernel over 25 blocks of 4000 rows against the same four host
  operations on the whole array.

  Over the extended reals both programs compute ONE function of the five arguments (`Cert.Mlp.mlp`, Proof/MlpSpec.lean):
  each entry is a sum over the 128 hidden units, in the order of the index, of the activated first-layer value times a
  weight, plus a bias. The kernel's matrix products into a zero accumulator and the reference's contractions are
  the same sums term by term, the transpositions only swap the coordinates at which a weight is read, and the
  activation is the same compare / multiply / select on both sides with the same slope word. No rearrangement of a
  sum is used, so the inputs' finiteness is never needed.

  Proof/RefMlp.lean reads the reference's operations at an index; Proof/BlockMlp.lean reads the value one grid point
  stores; Proof/KernelMlp.lean identifies each point's input blocks with rows of the arguments and tiles the result
  array with the 25 stored blocks. The three frames come from the generated runs; the idealization rewrote nothing.
-/
import proofs.«172097_g30253749633090_cont_9to1_1439_1_alg».proof.Defs
import proofs.«172097_g30253749633090_cont_9to1_1439_1_alg».proof.Proof.Gen.Kernel
import proofs.«172097_g30253749633090_cont_9to1_1439_1_alg».proof.Proof.Gen.Kernel.Skeleton
import proofs.«172097_g30253749633090_cont_9to1_1439_1_alg».proof.Proof.Gen.Kernel.Launch
import proofs.«172097_g30253749633090_cont_9to1_1439_1_alg».proof.Proof.Gen.Kernel.Points
import proofs.«172097_g30253749633090_cont_9to1_1439_1_alg».proof.Proof.Gen.Kernel.Frame
import proofs.«172097_g30253749633090_cont_9to1_1439_1_alg».proof.Proof.Gen.KernelIdeal
import proofs.«172097_g30253749633090_cont_9to1_1439_1_alg».proof.Proof.Gen.KernelIdeal.Skeleton
import proofs.«172097_g30253749633090_cont_9to1_1439_1_alg».proof.Proof.Gen.KernelIdeal.Launch
import proofs.«172097_g30253749633090_cont_9to1_1439_1_alg».proof.Proof.Gen.KernelIdeal.Points
import proofs.«172097_g30253749633090_cont_9to1_1439_1_alg».proof.Proof.Gen.KernelIdeal.Frame
import proofs.«172097_g30253749633090_cont_9to1_1439_1_alg».proof.Proof.Gen.ReferenceIdeal
import proofs.«172097_g30253749633090_cont_9to1_1439_1_alg».proof.Proof.Gen.Pre_finite_inputs
import proofs.«172097_g30253749633090_cont_9to1_1439_1_alg».proof.Proof.Gen.KernelIdeal.Value
import proofs.«172097_g30253749633090_cont_9to1_1439_1_alg».proof.Proof.Gen.ReferenceIdeal.Run
import proofs.«172097_g30253749633090_cont_9to1_1439_1_alg».proof.Proof.Gen.ReferenceIdeal.Read
import proofs.«172097_g30253749633090_cont_9to1_1439_1_alg».proof.Proof.KernelMlp
import proofs.«172097_g30253749633090_cont_9to1_1439_1_alg».proof.Proof.RefMlp
import Idealize.ShloMosaic.Adequacy
import Idealize.ShloMosaic.Init

noncomputable section

namespace Cert.Proof

open Idealize.ShloMosaic Idealize.SL.Sem

/-- The word-level kernel and its idealization run to the end with their arguments unchanged. -/
theorem frame_kernel : Cert.frame_Kernel := fun m ρ _ => Cert.Kernel.Gen.frame m ρ
theorem frame_ideal : Cert.frame_KernelIdeal := fun m ρ _ => Cert.KernelIdeal.Gen.frame m ρ
/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array ends at the specification of its
    arguments and the reference's result at the specification of its own: one array. -/
theorem algebraic : Cert.algebraic_KernelIdeal_ReferenceIdeal := by
  intro m ρ m' ρ' _ hagree
  refine ⟨fun c => Cert.Mlp.Kernel.result m c, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  exact (Cert.ReferenceIdeal.Read.val_main_v14_eq _ _ _ _ _).trans (Cert.Mlp.Ref.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
